-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .f32) (main_arg1 : FVec F S4096x1024 .f32) (main_arg2 : IVec S4096x256 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_c_2 : IVec S_ 32 := constantI S_ 32 0#32
  let main_v9 : IVec S4096x256 32 := broadcastInDim S4096x256 ![] bcast_S_S4096x256 main_c_2
  let main_v10 : IVec S4096x256 1 := cmpi .sge main_arg2 main_v9
  let main_c_3 : IVec S_ 1 := constantI S_ 1 1#1
  let main_v11 : IVec S_ 1 := (fun x v => Host.reduce IntOp.andi x v reducesTo_S4096x256_S_d0_1 h_S_) main_v10 main_c_3
  let main_v12 : IVec S_ 1 := andi main_v8 main_v11
  main_v12
-- ==== Kernel.lean ====
abbrev S4096x1024 : Shape := ⟨2, ![4096, 1024]⟩
abbrev S4096x256 : Shape := ⟨2, ![4096, 256]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S32x128 : Shape := ⟨2, ![32, 128]⟩
abbrev S4096x32x128 : Shape := ⟨3, ![4096, 32, 128]⟩
abbrev S128x256 : Shape := ⟨2, ![128, 256]⟩
abbrev S128x32x128 : Shape := ⟨3, ![128, 32, 128]⟩
abbrev S32x256 : Shape := ⟨2, ![32, 256]⟩
abbrev S256x128 : Shape := ⟨2, ![256, 128]⟩
abbrev S128x1x256 : Shape := ⟨3, ![128, 1, 256]⟩
abbrev S1x32x256 : Shape := ⟨3, ![1, 32, 256]⟩
abbrev S128x32x256 : Shape := ⟨3, ![128, 32, 256]⟩
abbrev S128x256x1 : Shape := ⟨3, ![128, 256, 1]⟩
abbrev S1x256x128 : Shape := ⟨3, ![1, 256, 128]⟩
abbrev S128x256x128 : Shape := ⟨3, ![128, 256, 128]⟩
abbrev S1x32x128 : Shape := ⟨3, ![1, 32, 128]⟩
abbrev S4096x4096 : Shape := ⟨2, ![4096, 4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .i32⟩
  | .hbm, ⟨3, _⟩ => ⟨S1x4096, .f32⟩
  | .hbm, ⟨4, _⟩ => ⟨S32x128, .f32⟩
  | .hbm, ⟨5, _⟩ => ⟨S4096x32x128, .f32⟩
  | .hbm, ⟨6, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S128x256, .i32⟩
  | .local _ .vmem, ⟨7, _⟩ => ⟨S128x256, .i32⟩
  | .local _ .vmem, ⟨8, _⟩ => ⟨S32x128, .f32⟩
  | .local _ .vmem, ⟨9, _⟩ => ⟨S128x32x128, .f32⟩
  | .local _ .vmem, ⟨10, _⟩ => ⟨S128x32x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1x4096_S32x128 : S1x4096.ShapeCasts S32x128
  inb_S128x256_S128x256_0_0 : ∀ a, (![0, 0] : Fin 2 → Nat) a + S128x256.size a ≤ S128x256.size a
  h_S128x256 : 0 < S128x256.numel
  iota_S32x256_d0_w32 : S32x256.Iotas .tc 32 [0]
  iota_S256x128_d1_w32 : S256x128.Iotas .tc 32 [1]
  shapeCasts_S128x256_S128x1x256 : S128x256.ShapeCasts S128x1x256
  shapeCasts_S32x256_S1x32x256 : S32x256.ShapeCasts S1x32x256
  broadcasts_S128x1x256_S128x32x256 : S128x1x256.Broadcasts S128x32x256
  broadcasts_S1x32x256_S128x32x256 : S1x32x256.Broadcasts S128x32x256
  natLt_1_32 : 1 < 32
  bitsLt_bf16_f32 : FTy.bits .bf16 < FTy.bits .f32
  shapeCasts_S128x256_S128x256x1 : S128x256.ShapeCasts S128x256x1
  shapeCasts_S256x128_S1x256x128 : S256x128.ShapeCasts S1x256x128
  broadcasts_S128x256x1_S128x256x128 : S128x256x1.Broadcasts S128x256x128
  broadcasts_S1x256x128_S128x256x128 : S1x256x128.Broadcasts S128x256x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S1x32x128 : S32x128.ShapeCasts S1x32x128
  shapeCasts_S1x32x128_S1x32x128 : S1x32x128.ShapeCasts S1x32x128
  broadcasts_S1x32x128_S128x32x128 : S1x32x128.Broadcasts S128x32x128
  inb_S128x32x128_S128x32x128_0_0_0 : ∀ a, (![0, 0, 0] : Fin 3 → Nat) a + S128x32x128.size a ≤ S128x32x128.size a
  h_S128x32x128 : 0 < S128x32x128.numel
  shapeCasts_S4096x32x128_S4096x4096 : S4096x32x128.ShapeCasts S4096x4096
  dot_S128x32x256_S128x256x128_S128x32x128_2_1_1_2_0_0_wf : DotDims.WF S128x32x256 S128x256x128 S128x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S4096x256.size a
  hwx1_0 : ∀ i : grid1.Coords, EltTy.bits .i32 = 32 ∨ (Rect.block (s := S4096x256) S128x256.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x32x128.size a ≤ S4096x32x128.size a
  hwx1_2 : ∀ i : grid1.Coords, EltTy.bits .f32 = 32 ∨ (Rect.block (s := S4096x32x128) S128x32x128.size (cc1_transform_2 i) (hinb1_2 i)).WholeWords (EltTy.packing .f32)

variable [Facts₀]

def dot_S128x32x256_S128x256x128_S128x32x128_2_1_1_2_0_0 : DotDims S128x32x256 S128x256x128 S128x32x128 where
  lhsContracting := [2]
  rhsContracting := [1]
  lhsNonContracting := [1]
  rhsNonContracting := [2]
  lhsBatch := [0]
  rhsBatch := [0]
  wf := dot_S128x32x256_S128x256x128_S128x32x128_2_1_1_2_0_0_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x256 : Shape := ⟨2, ![4096, 256]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S4096x256x1 : Shape := ⟨3, ![4096, 256, 1]⟩
abbrev S4096x256x2 : Shape := ⟨3, ![4096, 256, 2]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .i32⟩
  | .hbm, ⟨3, _⟩ => ⟨S_, .f32⟩
  | .hbm, ⟨4, _⟩ => ⟨S4096x4096, .f32⟩
  | .hbm, ⟨5, _⟩ => ⟨S4096, .i32⟩
  | .hbm, ⟨6, _⟩ => ⟨S4096x1, .i32⟩
  | .hbm, ⟨7, _⟩ => ⟨S_, .i32⟩
  | .hbm, ⟨8, _⟩ => ⟨S4096x1, .i32⟩
  | .hbm, ⟨9, _⟩ => ⟨S4096x1, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S_, .i32⟩
  | .hbm, ⟨15, _⟩ => ⟨S4096x256, .i32⟩
  | .hbm, ⟨16, _⟩ => ⟨S4096x256, .i1⟩
  | .hbm, ⟨17, _⟩ => ⟨S_, .i32⟩
  | .hbm, ⟨18, _⟩ => ⟨S4096x256, .i32⟩
  | .hbm, ⟨19, _⟩ => ⟨S4096x256, .i32⟩
  | .hbm, ⟨20, _⟩ => ⟨S4096x256, .i32⟩
  | .hbm, ⟨21, _⟩ => ⟨S4096x256, .i32⟩
  | .hbm, ⟨22, _⟩ => ⟨S4096x256x1, .i32⟩
  | .hbm, ⟨23, _⟩ => ⟨S4096x256x1, .i32⟩
  | .hbm, ⟨24, _⟩ => ⟨S4096x256x2, .i32⟩
  | .hbm, ⟨25, _⟩ => ⟨S_, .f32⟩
  | .hbm, ⟨26, _⟩ => ⟨S4096x256, .f32⟩
  | .hbm, ⟨27, _⟩ => ⟨S4096x4096, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S1x4096, .f32⟩
  | .hbm, ⟨32, _⟩ => ⟨S4096x4096, .f32⟩
  | .hbm, ⟨33, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  bcast_S4096x256_S4096x256x1_0_1 : S4096x256.BroadcastsInDim S4096x256x1 (![0, 1] : Fin 2 → Fin S4096x256x1.rank)
  concatenates_S4096x256x1_S4096x256x1_S4096x256x2_d2 : Shape.Concatenates [S4096x256x1, S4096x256x1] S4096x256x2 2
  reducesTo_S4096x1024_S4096_d1 : S4096x1024.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S4096x256x2_S4096x256_n_01_01_2_wf : ScatterDims.WF S4096x4096 S4096x256x2 S4096x256 [] [0, 1] [0, 1] 2

variable [Facts₀]

def scatter_S4096x4096_S4096x256x2_S4096x256_n_01_01_2 : ScatterDims S4096x4096 S4096x256x2 S4096x256 where
  updateWindowDims := []
  insertedWindowDims := [0, 1]
  scatterDimsToOperandDims := [0, 1]
  indexVectorDim := 2
  wf := scatter_S4096x4096_S4096x256x2_S4096x256_n_01_01_2_wf

class Facts : Prop extends Facts₀ where

variable [Facts]
-- ==== Proof.Spec.lean ====
/-
  The function both programs compute, over the extended reals.

  For a concept `c` the SCORE is the inner product of row `c` of the two float tables,
  `score c = ∑ d, x0[c, d] · x1[c, d]`. Row `b` of the index table SAMPLES concept `c` when one of its 256
  words, read as a signed integer, is `c`. The result at `(b, c)` is `score c` when row `b` samples `c`,
  and `0` otherwise. Both sides of the certificate are shown equal to `G`, index by index.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- concepts × depth: the two float tables. -/
abbrev SCD : Shape := ⟨2, ![4096, 1024]⟩
/-- batch × samples: the index table. -/
abbrev SBK : Shape := ⟨2, ![4096, 256]⟩
/-- batch × concepts: the result. -/
abbrev SBC : Shape := ⟨2, ![4096, 4096]⟩

/-- The score of concept `c`: the inner product of its rows in the two tables. -/
def score (x0 x1 : FVec Ideal SCD .f32) (c : Fin 4096) : EReal :=
  ∑ d : Fin 1024, x0 (ix2 c d) * x1 (ix2 c d)

/-- Row `b` of the index table samples concept `c`: some word of the row, read signed, is `c`. -/
def sampled (x2 : IVec SBK 32) (b c : Fin 4096) : Prop :=
  ∃ k : Fin 256, (x2 (ix2 b k)).toInt = (c.val : Int)

open Classical in
/-- The result: the concept's score where the row samples it, zero elsewhere. -/
def G (x0 x1 : FVec Ideal SCD .f32) (x2 : IVec SBK 32) : FVec Ideal SBC .f32 :=
  fun i => if sampled x2 (i 0) (i 1) then score x0 x1 (i 1) else 0

theorem G_of_sampled (x0 x1 : FVec Ideal SCD .f32) (x2 : IVec SBK 32) (b c : Fin 4096)
    (h : sampled x2 b c) : G x0 x1 x2 (ix2 b c) = score x0 x1 c := by
  unfold G; exact if_pos h

theorem G_of_not_sampled (x0 x1 : FVec Ideal SCD .f32) (x2 : IVec SBK 32) (b c : Fin 4096)
    (h : ¬ sampled x2 b c) : G x0 x1 x2 (ix2 b c) = 0 := by
  unfold G; exact if_neg h

end Cert.Spec

end
-- ==== Proof.PreIdx.lean ====
/-
  What the precondition says of the index table: every word, read signed, is non-negative.

  The precondition is the conjunction of three "for all" tests, each an and-reduction over every
  axis of a bit array starting from the bit 1. Its last conjunct is the and-reduction of the bit
  array whose entry at j is the signed comparison  x2 j ≥ 0  (the 0 being a scalar zero word
  spread over the rectangle). A conjunction is 1 only if both sides are; an and-reduction over
  all axes that came out 1 met a 1 at every entry; and the signed comparison  w ≥ 0  is 1
  exactly when 0 ≤ w read as a signed integer.
-/
import proofs.«411610_j9139690405988_3_alg».proof.Pre_finite_inputs
import proofs.«411610_j9139690405988_3_alg».proof.Proof.Gen.Pre_finite_inputs
import Idealize.ShloMosaic.PureOps.Ideal.Laws
import Idealize.ShloMosaic.Lib.ValueIdx
import Idealize.ShloMosaic.Lib.ReduceAll

noncomputable section

open Idealize.ShloMosaic Idealize.ShloMosaic.ValueIdx

namespace Cert.Pre_finite_inputs.Hand

open Cert.Pre_finite_inputs

/-- The scalar zero word spread over a rectangle reads 0 at every entry. -/
theorem bcast_zero_apply {t : Shape} (hb : S_.BroadcastsInDim t (![] : Fin 0 → Fin t.rank)) (j : t.Idx) :
    broadcastInDim t ![] hb (constantI S_ 32 0#32) j = 0#32 := rfl

theorem idx_nonneg_of_pre [Facts] (x0 x1 : FVec Ideal S4096x1024 .f32) (x2 : IVec S4096x256 32)
    (h : fn (F := Ideal) x0 x1 x2 = fun _ => 1#1) : ∀ j, 0 ≤ (x2 j).toInt := by
  intro j
  -- the rank-0 shape has exactly one index (the empty tuple)
  haveI : Subsingleton S_.Idx := ⟨fun a b => funext fun d => d.elim0⟩
  -- the one entry of the rank-0 result is 1
  have h0 := congrFun h ValueIdx.ix0
  dsimp only [fn] at h0
  -- the outer conjunction: its right side, the test on the index table, is 1
  obtain ⟨_, h11⟩ := IntOp.andi_eq_one.1 h0
  -- the and-reduction over all axes met a 1 at entry j
  have hj := Host.reduce_andi_all _ _ _ _ _ h11 j
  -- the signed comparison  x2 j ≥ 0  being 1 says  0 ≤ x2 j  as signed integers
  have hle := IntOp.cmpi_sge.1 hj
  rw [bcast_zero_apply] at hle
  exact hle

end Cert.Pre_finite_inputs.Hand

end
-- ==== Proof.Pay0.lean ====
/-
  The first kernel's stored value, read at an index: lane `n` of the one-row block is the inner product of
  row `n` of the two input blocks (the product, the sum along the row, and the turn of the column into a row).
-/
import proofs.«411610_j9139690405988_3_alg».proof.Proof.Gen.KernelIdeal.Skeleton
import proofs.«411610_j9139690405988_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators
open Idealize.ShloMosaic Idealize.ShloMosaic.ValueIdx

namespace Cert.KernelIdeal.Hand

open Cert.KernelIdeal Cert.KernelIdeal.Gen

/-- Row `n` of the [1024] row sums, with the column `d` put back on the summed axis of the [1024, 1024] block,
    is the entry `(n, d)`: the kept axis 0 carries `n`, the summed axis 1 carries `d`. -/
theorem pay0_lift_row (n : Fin 1024) (d : Fin (S1024x1024.size 1)) :
    reduces_S1024x1024_S1024.lift (ix1 n) d = ix2 n d := by
  funext c
  apply Fin.ext
  rw [Shape.Reduces.lift_val]
  match c with
  | ⟨0, _⟩ => rfl
  | ⟨1, _⟩ => rfl

theorem pay0_apply (v0 v1 : Vec Ideal S1024x1024 .f32) (n : Fin 1024) :
    k0_pay1 (F := Ideal) v0 v1 (ix2 (0 : Fin 1) n) = ∑ d : Fin 1024, v0 (ix2 n d) * v1 (ix2 n d) := by
  unfold k0_pay1
  dsimp only
  -- the [1024, 1] column turned into a [1, 1024] row: entry (0, n) of the row is entry (n, 0) of the column
  rw [transpose_ix2_apply]
  -- the [1024] vector viewed as a [1024, 1] column: entry (n, 0) sits at row-major position n·1 + 0 = n
  refine (shapeCast_apply _ _ _ (ix1 n) (by
    rw [Shape.rowMajor_val_two, Shape.rowMajor_val_one]
    show n.val = n.val * 1 + 0
    omega)).trans ?_
  -- the sum along axis 1 from the zero word, at row n: the sum over the columns d of the block at (n, d)
  refine (Ideal.multiReduction_add_single (mulf v0 v1) 0x00000000#32 reduces_S1024x1024_S1024 (.inl rfl) rfl (ix1 n)).trans ?_
  refine Finset.sum_congr rfl fun d _ => ?_
  rw [pay0_lift_row]
  -- the elementwise product at (n, d) is the product of the two entries
  rfl

end Cert.KernelIdeal.Hand

end
-- ==== Proof.Region0.lean ====
/-
  The first region's array. Point `t` of its grid of four loads rows `1024·t … 1024·t + 1023` of the two float
  tables and writes lanes `1024·t … 1024·t + 1023` of the one-row result: lane `n` of the block is the inner
  product of row `n` of the two blocks. The four blocks tile the row, so the region leaves in it, at lane `c`,
  the score of concept `c`.
-/
import proofs.«411610_j9139690405988_3_alg».proof.Proof.Gen.KernelIdeal.Frame
import proofs.«411610_j9139690405988_3_alg».proof.Proof.Pay0
import proofs.«411610_j9139690405988_3_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- The scores of the 4096 concepts laid out as one row. -/
def scoreRow (x0 x1 : Vec Ideal S4096x1024 .f32) : Vec Ideal S1x4096 .f32 :=
  fun j => Cert.Spec.score x0 x1 ⟨(j 1).val, (j 1).isLt⟩

/-- The printed index maps over the grid: the input blocks move down the rows with the point, the output block
    along the lanes. -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What point `t` writes back is block `t` of the row of scores of the tables as the region finds them. -/
theorem flushed0_eq (c : Dev nD) (t : Fin cfg0.N) :
    (dat0 V c).flushed 2 t = ((cfg0.win 2).blk t).view.read (Elt Ideal) (scoreRow (V c main_arg0) (V c main_arg1)) := by
  show (cfg0.win 2).cut (grid0.coords t) ((dat0 V c).after 2 t) = _
  rw [after0_2]
  unfold out0_2
  rw [View.canon_unit_zero zero2]
  simp only [View.ld_unit_zero (S := S1024x1024) zero2]
  obtain ⟨e0, e1, e2, e3, e4, e5⟩ := index_maps0 t
  funext j
  have hj0 : (j 0).val < 1 := (j 0).isLt
  have hj1 : (j 1).val < 1024 := (j 1).isLt
  have hjj : (j : S1x1024.Idx) = ix2 (0 : Fin 1) (⟨(j 1).val, hj1⟩ : Fin 1024) :=
    funext fun a => Fin.ext (by match a with | ⟨0, _⟩ => (show (j 0).val = 0; omega) | ⟨1, _⟩ => rfl)
  show k0_pay1 (iblk0 V c 0 t) (iblk0 V c 1 t) j
      = scoreRow (V c main_arg0) (V c main_arg1) (((cfg0.win 2).blk t).view.emb j)
  refine (congrArg (k0_pay1 (F := Ideal) (iblk0 V c 0 t) (iblk0 V c 1 t)) hjj).trans ?_
  refine (pay0_apply (iblk0 V c 0 t) (iblk0 V c 1 t) ⟨(j 1).val, hj1⟩).trans ?_
  unfold scoreRow Cert.Spec.score
  refine Finset.sum_congr rfl fun d _ => ?_
  have r0 : (iblk0 V c 0 t : Vec Ideal S1024x1024 .f32) (ix2 (⟨(j 1).val, hj1⟩ : Fin 1024) d)
      = (V c main_arg0 : Vec Ideal S4096x1024 .f32) (ix2 ⟨((((cfg0.win 2).blk t).view.emb j) 1).val, ((((cfg0.win 2).blk t).view.emb j) 1).isLt⟩ d) := by
    unfold iblk0
    rw [View.read_apply]
    show V c main_arg0 _ = V c main_arg0 _
    congr 1
    funext a
    apply Fin.ext
    match a with
    | ⟨0, _⟩ => show win0_0.index t (0 : Fin 2) * 1024 + 1 * (j 1).val = win0_2.index t (1 : Fin 2) * 1024 + 1 * (j 1).val; omega
    | ⟨1, _⟩ => show win0_0.index t (1 : Fin 2) * 1024 + 1 * d.val = d.val; omega
  have r1 : (iblk0 V c 1 t : Vec Ideal S1024x1024 .f32) (ix2 (⟨(j 1).val, hj1⟩ : Fin 1024) d)
      = (V c main_arg1 : Vec Ideal S4096x1024 .f32) (ix2 ⟨((((cfg0.win 2).blk t).view.emb j) 1).val, ((((cfg0.win 2).blk t).view.emb j) 1).isLt⟩ d) := by
    unfold iblk0
    rw [View.read_apply]
    show V c main_arg1 _ = V c main_arg1 _
    congr 1
    funext a
    apply Fin.ext
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * d.val = d.val; omega
  exact congrArg₂ (· * ·) r0 r1

/-- An index of the row is in point `t`'s block iff each coordinate is in the block's range on its axis. -/
theorem mem_blk0 (t : Fin cfg0.N) (i : S1x4096.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0).slice (win0_2.rect t)).set ↔ _
  rw [View.set_slice_whole, Rect.mem_set_unit]
  exact Iff.rfl

/-- The four blocks tile the row (lane `n` is in block `n / 1024`), so the region leaves the row of scores. -/
theorem final0 (c : Dev nD) : (dat0 V c).arrAt 2 cfg0.N = scoreRow (V c main_arg0) (V c main_arg1) :=
  (dat0 V c).arrAt_eq_of_cover 2 (scoreRow (V c main_arg0) (V c main_arg1)) (fun t _ => flushed0_eq V c t) fun i => by
    have hi0 : ((i : S1x4096.Idx) 0).val < 1 := (i 0).isLt
    have hi1 : ((i : S1x4096.Idx) 1).val < 4096 := (i 1).isLt
    have hN : cfg0.N = 4 := N_0
    have hlt : ((i : S1x4096.Idx) 1).val / 1024 < cfg0.N := by rw [hN]; omega
    obtain ⟨e0, e1, e2, e3, e4, e5⟩ := index_maps0 ⟨((i : S1x4096.Idx) 1).val / 1024, hlt⟩
    have e5' : win0_2.index ⟨((i : S1x4096.Idx) 1).val / 1024, hlt⟩ (1 : Fin 2) = ((i : S1x4096.Idx) 1).val / 1024 := e5
    refine ⟨⟨((i : S1x4096.Idx) 1).val / 1024, hlt⟩, flush0_2 _, ?_⟩
    rw [mem_blk0]
    intro a
    match a with
    | ⟨0, _⟩ =>
      show win0_2.index _ (0 : Fin 2) * 1 ≤ ((i : S1x4096.Idx) 0).val ∧ ((i : S1x4096.Idx) 0).val < win0_2.index _ (0 : Fin 2) * 1 + 1
      rw [e4]; omega
    | ⟨1, _⟩ =>
      show win0_2.index _ (1 : Fin 2) * 1024 ≤ ((i : S1x4096.Idx) 1).val ∧ ((i : S1x4096.Idx) 1).val < win0_2.index _ (1 : Fin 2) * 1024 + 1024
      rw [e5']; omega

end Cert.KernelIdeal.Hand

end
-- ==== Proof.Pay1.lean ====
/-
  The second kernel's stored value, read at an index.

  A non-negative index word `w` splits as `w = 128 · (w >>> 7) + (w &&& 127)`. The kernel marks, for every
  word of row `p`, whether its high part is `h` and whether its low part is `l` (two arrays of zeros and ones),
  multiplies the two marks and sums over the row: the sum is positive exactly when some word of the row is
  `128 · h + l`. Where it is positive the stored value is the table's entry at `(h, l)`, elsewhere zero.
-/
import proofs.«411610_j9139690405988_3_alg».proof.Proof.Gen.KernelIdeal.Skeleton
import proofs.«411610_j9139690405988_3_alg».proof.Proof.Spec
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Hand

open Cert.KernelIdeal Cert.KernelIdeal.Gen

/-- Row `p` of a block of index words hits the pair `(h, l)`: some word of the row is `128 · h + l`. -/
def hits (v0 : Vec Ideal S128x256 .i32) (p : Fin 128) (h : Fin 32) (l : Fin 128) : Prop :=
  ∃ k : Fin 256, (v0 (ix2 p k) : BitVec 32).toInt = (128 * h.val + l.val : Int)

/-! ## Words -/

/-- A word read signed is non-negative exactly when it is below `2 ^ 31` read unsigned, and then the two readings agree. -/
theorem toNat_lt_of_toInt_nonneg (w : BitVec 32) (hw : 0 ≤ w.toInt) : w.toNat < 2 ^ 31 ∧ w.toInt = (w.toNat : Int) := by
  have h := BitVec.toInt_eq_toNat_cond w
  have hlt := w.isLt
  split at h <;> omega

/-- The high part of a non-negative word: the arithmetic shift right by seven is the quotient by `128`. -/
theorem hi_toInt (w : BitVec 32) (hw : 0 ≤ w.toInt) :
    (IntOp.shrsi .vector w 7#32).toInt = ((w.toNat / 128 : Nat) : Int) := by
  obtain ⟨hlt, -⟩ := toNat_lt_of_toInt_nonneg w hw
  have hmsb : w.msb = false := by
    rw [BitVec.msb_eq_false_iff_two_mul_lt]; omega
  have e : IntOp.shrsi .vector w 7#32 = w >>> 7 := by
    unfold IntOp.shrsi
    rw [if_pos (by decide)]
    show w.sshiftRight (7#32).toNat = w >>> 7
    rw [BitVec.sshiftRight_eq_of_msb_false hmsb]; rfl
  have hn : (w >>> 7).toNat = w.toNat / 128 := by
    rw [BitVec.toNat_ushiftRight, Nat.shiftRight_eq_div_pow]
  rw [e, BitVec.toInt_eq_toNat_cond, hn]
  rw [if_pos (by omega)]

/-- The low part of a word: the conjunction with `127` is the remainder by `128`. -/
theorem lo_toInt (w : BitVec 32) :
    (IntOp.andi w 127#32).toInt = ((w.toNat % 128 : Nat) : Int) := by
  have hn : (w &&& 127#32).toNat = w.toNat % 128 := by
    rw [BitVec.toNat_and]
    exact Nat.and_two_pow_sub_one_eq_mod w.toNat 7
  show (w &&& 127#32).toInt = _
  rw [BitVec.toInt_eq_toNat_cond, hn]
  rw [if_pos (by omega)]

/-- A small natural as a word, read signed, is itself. -/
theorem ofNat_toInt (n : Nat) (hn : n < 2 ^ 31) : (BitVec.ofNat 32 n).toInt = (n : Int) := by
  rw [BitVec.toInt_eq_toNat_cond, BitVec.toNat_ofNat, Nat.mod_eq_of_lt (by omega)]
  rw [if_pos (by omega)]

/-- THE SPLIT: a non-negative word is `128 · h + l` exactly when its high part is `h` and its low part is `l`. -/
theorem split_iff (w : BitVec 32) (hw : 0 ≤ w.toInt) (h : Fin 32) (l : Fin 128) :
    ((IntOp.shrsi .vector w 7#32).toInt = (BitVec.ofNat 32 h.val).toInt ∧
        (IntOp.andi w 127#32).toInt = (BitVec.ofNat 32 l.val).toInt)
      ↔ w.toInt = (128 * h.val + l.val : Int) := by
  obtain ⟨-, hi⟩ := toNat_lt_of_toInt_nonneg w hw
  rw [hi_toInt w hw, lo_toInt w, ofNat_toInt h.val (by omega), ofNat_toInt l.val (by omega), hi]
  have := h.isLt; have := l.isLt
  omega

/-! ## The layout operations of the body, read at an index -/

section Layout
variable {α : Type}

/-- A `[128, 256]` array given a unit middle axis and repeated over it reads, at `(p, h, k)`, the array at `(p, k)`. -/
theorem rowsOverMid_apply (x : S128x256.Idx → α) (hc : S128x256.ShapeCasts S128x1x256)
    (hb : S128x1x256.Broadcasts S128x32x256) (p : Fin 128) (h : Fin 32) (k : Fin 256) :
    broadcastTo S128x32x256 (shapeCast S128x1x256 x hc) hb (ix3 p h k) = x (ix2 p k) := by
  refine (broadcastTo_apply _ hb (ix3 p h k) (ix3 p (0 : Fin 1) k) fun a => ?_).trans ?_
  · match a with
    | ⟨0, _⟩ => rfl
    | ⟨1, _⟩ => rfl
    | ⟨2, _⟩ => rfl
  · refine shapeCast_apply x hc _ (ix2 p k) ?_
    rw [Shape.rowMajor_val_three, Shape.rowMajor_val_two]
    show p.val * 256 + k.val = (p.val * 1 + 0) * 256 + k.val
    omega

/-- A `[32, 256]` array given a unit leading axis and repeated over it reads, at `(p, h, k)`, the array at `(h, k)`. -/
theorem iotaOverLead_apply (y : S32x256.Idx → α) (hc : S32x256.ShapeCasts S1x32x256)
    (hb : S1x32x256.Broadcasts S128x32x256) (p : Fin 128) (h : Fin 32) (k : Fin 256) :
    broadcastTo S128x32x256 (shapeCast S1x32x256 y hc) hb (ix3 p h k) = y (ix2 h k) := by
  refine (broadcastTo_apply _ hb (ix3 p h k) (ix3 (0 : Fin 1) h k) fun a => ?_).trans ?_
  · match a with
    | ⟨0, _⟩ => rfl
    | ⟨1, _⟩ => rfl
    | ⟨2, _⟩ => rfl
  · refine shapeCast_apply y hc _ (ix2 h k) ?_
    rw [Shape.rowMajor_val_three, Shape.rowMajor_val_two]
    show h.val * 256 + k.val = (0 * 32 + h.val) * 256 + k.val
    omega

/-- A `[128, 256]` array given a unit trailing axis and repeated over it reads, at `(p, k, l)`, the array at `(p, k)`. -/
theorem rowsOverLast_apply (x : S128x256.Idx → α) (hc : S128x256.ShapeCasts S128x256x1)
    (hb : S128x256x1.Broadcasts S128x256x128) (p : Fin 128) (k : Fin 256) (l : Fin 128) :
    broadcastTo S128x256x128 (shapeCast S128x256x1 x hc) hb (ix3 p k l) = x (ix2 p k) := by
  refine (broadcastTo_apply _ hb (ix3 p k l) (ix3 p k (0 : Fin 1)) fun a => ?_).trans ?_
  · match a with
    | ⟨0, _⟩ => rfl
    | ⟨1, _⟩ => rfl
    | ⟨2, _⟩ => rfl
  · refine shapeCast_apply x hc _ (ix2 p k) ?_
    rw [Shape.rowMajor_val_three, Shape.rowMajor_val_two]
    show p.val * 256 + k.val = (p.val * 256 + k.val) * 1 + 0
    omega

/-- A `[256, 128]` array given a unit leading axis and repeated over it reads, at `(p, k, l)`, the array at `(k, l)`. -/
theorem lanesOverLead_apply (y : S256x128.Idx → α) (hc : S256x128.ShapeCasts S1x256x128)
    (hb : S1x256x128.Broadcasts S128x256x128) (p : Fin 128) (k : Fin 256) (l : Fin 128) :
    broadcastTo S128x256x128 (shapeCast S1x256x128 y hc) hb (ix3 p k l) = y (ix2 k l) := by
  refine (broadcastTo_apply _ hb (ix3 p k l) (ix3 (0 : Fin 1) k l) fun a => ?_).trans ?_
  · match a with
    | ⟨0, _⟩ => rfl
    | ⟨1, _⟩ => rfl
    | ⟨2, _⟩ => rfl
  · refine shapeCast_apply y hc _ (ix2 k l) ?_
    rw [Shape.rowMajor_val_three, Shape.rowMajor_val_two]
    show k.val * 128 + l.val = (0 * 256 + k.val) * 128 + l.val
    omega

/-- The `[32, 128]` table given a unit leading axis and repeated over it reads, at `(p, h, l)`, the table at `(h, l)`. -/
theorem tableOverLead_apply (v : S32x128.Idx → α) (h1 : S32x128.ShapeCasts S32x128) (h2 : S32x128.ShapeCasts S1x32x128)
    (h3 : S1x32x128.ShapeCasts S1x32x128) (hb : S1x32x128.Broadcasts S128x32x128) (p : Fin 128) (h : Fin 32) (l : Fin 128) :
    broadcastTo S128x32x128 (shapeCast S1x32x128 (shapeCast S1x32x128 (shapeCast S32x128 v h1) h2) h3) hb (ix3 p h l)
      = v (ix2 h l) := by
  rw [shapeCast_self _ h3, shapeCast_self v h1]
  refine (broadcastTo_apply _ hb (ix3 p h l) (ix3 (0 : Fin 1) h l) fun a => ?_).trans ?_
  · match a with
    | ⟨0, _⟩ => rfl
    | ⟨1, _⟩ => rfl
    | ⟨2, _⟩ => rfl
  · refine shapeCast_apply v h2 _ (ix2 h l) ?_
    rw [Shape.rowMajor_val_three, Shape.rowMajor_val_two]
    show h.val * 128 + l.val = (0 * 32 + h.val) * 128 + l.val
    omega

end Layout

/-! ## The two marks -/

/-- Two extended reals compared for equality, the bit widened and converted: one where they are equal, zero elsewhere. -/
theorem mark_val (x y : Ideal .bf16) :
    FloatOps.sitofp (F := Ideal) .f32 ((FloatOps.cmpf .oeq x y).setWidth 32) = if x = y then (1 : EReal) else 0 := by
  rw [Ideal.cmpf_def]
  by_cases hxy : x = y
  · have hc : Ideal.cmp .oeq x y = 1#1 := by simp [Ideal.cmp, hxy]
    rw [if_pos hxy, hc]
    show (((BitVec.setWidth 32 1#1).toInt : ℝ) : EReal) = 1
    rw [show (BitVec.setWidth 32 1#1).toInt = 1 by decide]
    simp
  · have hc : Ideal.cmp .oeq x y = 0#1 := by simp [Ideal.cmp, hxy]
    rw [if_neg hxy, hc]
    show (((BitVec.setWidth 32 0#1).toInt : ℝ) : EReal) = 0
    rw [show (BitVec.setWidth 32 0#1).toInt = 0 by decide]
    simp

/-- Two integers as extended reals are equal exactly when they are equal. -/
theorem intCast_eq_iff (a b : Int) : (((a : ℝ) : EReal) = ((b : ℝ) : EReal)) ↔ a = b := by
  rw [EReal.coe_eq_coe_iff, Int.cast_inj]

/-- The mark of the high parts: at `(p, h, k)` one where the high part of word `(p, k)` is `h`, zero elsewhere. -/
def markHi (v0 : Vec Ideal S128x256 .i32) : FVec Ideal S128x32x256 .bf16 :=
  truncf .bf16 (sitofp .f32 (extui 32 (cmpf .oeq
    (broadcastTo S128x32x256 (shapeCast S128x1x256 (sitofp (F := Ideal) .bf16 (shrsi v0 (broadcast S128x256 7#32)))
      shapeCasts_S128x256_S128x1x256) broadcasts_S128x1x256_S128x32x256)
    (broadcastTo S128x32x256 (shapeCast S1x32x256 (sitofp (F := Ideal) .bf16 (iota .tc S32x256 32 [0] iota_S32x256_d0_w32))
      shapeCasts_S32x256_S1x32x256) broadcasts_S1x32x256_S128x32x256)) natLt_1_32)) bitsLt_bf16_f32

/-- The mark of the low parts: at `(p, k, l)` one where the low part of word `(p, k)` is `l`, zero elsewhere. -/
def markLo (v0 : Vec Ideal S128x256 .i32) : FVec Ideal S128x256x128 .bf16 :=
  truncf .bf16 (sitofp .f32 (extui 32 (cmpf .oeq
    (broadcastTo S128x256x128 (shapeCast S128x256x1 (sitofp (F := Ideal) .bf16 (andi v0 (broadcast S128x256 127#32)))
      shapeCasts_S128x256_S128x256x1) broadcasts_S128x256x1_S128x256x128)
    (broadcastTo S128x256x128 (shapeCast S1x256x128 (sitofp (F := Ideal) .bf16 (iota .tc S256x128 32 [1] iota_S256x128_d1_w32))
      shapeCasts_S256x128_S1x256x128) broadcasts_S1x256x128_S128x256x128)) natLt_1_32)) bitsLt_bf16_f32

theorem markHi_apply (v0 : Vec Ideal S128x256 .i32) (p : Fin 128) (h : Fin 32) (k : Fin 256) :
    markHi v0 (ix3 p h k)
      = if (IntOp.shrsi .vector (v0 (ix2 p k) : BitVec 32) 7#32).toInt = (BitVec.ofNat 32 h.val).toInt then (1 : EReal) else 0 := by
  unfold markHi
  rw [truncf_apply, sitofp_apply, extui_apply, cmpf_apply, rowsOverMid_apply, iotaOverLead_apply, mark_val,
    sitofp_apply, sitofp_apply, iota_single_apply]
  show (if (((IntOp.shrsi .vector (v0 (ix2 p k)) 7#32).toInt : ℝ) : EReal) = (((BitVec.ofNat 32 h.val).toInt : ℝ) : EReal)
    then (1 : EReal) else 0) = _
  simp only [intCast_eq_iff]

theorem markLo_apply (v0 : Vec Ideal S128x256 .i32) (p : Fin 128) (k : Fin 256) (l : Fin 128) :
    markLo v0 (ix3 p k l)
      = if (IntOp.andi (v0 (ix2 p k) : BitVec 32) 127#32).toInt = (BitVec.ofNat 32 l.val).toInt then (1 : EReal) else 0 := by
  unfold markLo
  rw [truncf_apply, sitofp_apply, extui_apply, cmpf_apply, rowsOverLast_apply, lanesOverLead_apply, mark_val,
    sitofp_apply, sitofp_apply, iota_single_apply]
  show (if (((IntOp.andi (v0 (ix2 p k)) 127#32).toInt : ℝ) : EReal) = (((BitVec.ofNat 32 l.val).toInt : ℝ) : EReal)
    then (1 : EReal) else 0) = _
  simp only [intCast_eq_iff]

/-! ## The product of the two marks, read at an index -/

/-- The record of the product: batch axis `0` of both operands, the row's axis contracted. -/
abbrev countDims : DotDims S128x32x256 S128x256x128 S128x32x128 :=
  dot_S128x32x256_S128x256x128_S128x32x128_2_1_1_2_0_0

/-- The left operand's batch coordinate is the result's. -/
theorem lhs_countDims_0 (j : S128x32x128.Idx) (c : countDims.contr.Idx) : (countDims.lhsIdx j c 0).val = (j 0).val := by
  unfold DotDims.lhsIdx
  rw [dif_pos (show (0 : Fin S128x32x256.rank) ∈ countDims.lhsBatch by decide)]
  rfl

/-- The left operand's free coordinate is the result's middle one. -/
theorem lhs_countDims_1 (j : S128x32x128.Idx) (c : countDims.contr.Idx) : (countDims.lhsIdx j c 1).val = (j 1).val := by
  unfold DotDims.lhsIdx
  rw [dif_neg (show ¬ (1 : Fin S128x32x256.rank) ∈ countDims.lhsBatch by decide),
    dif_pos (show (1 : Fin S128x32x256.rank) ∈ countDims.lhsNonContracting by decide)]
  rfl

/-- The left operand's last coordinate is the contraction's. -/
theorem lhs_countDims_2 (j : S128x32x128.Idx) (c : countDims.contr.Idx) :
    (countDims.lhsIdx j c 2).val = (c ⟨0, by decide⟩).val :=
  countDims.lhsIdx_val_of_single (cl := 2) rfl j c

/-- The right operand's batch coordinate is the result's. -/
theorem rhs_countDims_0 (j : S128x32x128.Idx) (c : countDims.contr.Idx) : (countDims.rhsIdx j c 0).val = (j 0).val := by
  unfold DotDims.rhsIdx
  rw [dif_pos (show (0 : Fin S128x256x128.rank) ∈ countDims.rhsBatch by decide)]
  rfl

/-- The right operand's middle coordinate is the contraction's. -/
theorem rhs_countDims_1 (j : S128x32x128.Idx) (c : countDims.contr.Idx) :
    (countDims.rhsIdx j c 1).val = (c ⟨0, by decide⟩).val :=
  countDims.rhsIdx_val_of_single (cr := 1) rfl j c

/-- The right operand's free coordinate is the result's last one. -/
theorem rhs_countDims_2 (j : S128x32x128.Idx) (c : countDims.contr.Idx) : (countDims.rhsIdx j c 2).val = (j 2).val := by
  unfold DotDims.rhsIdx
  rw [dif_neg (show ¬ (2 : Fin S128x256x128.rank) ∈ countDims.rhsBatch by decide),
    dif_pos (show (2 : Fin S128x256x128.rank) ∈ countDims.rhsNonContracting by decide)]
  rfl

/-- The product into the zero accumulator, at `(p, h, l)`: the sum over the row of the products of the entries. -/
theorem count_apply (A : FVec Ideal S128x32x256 .bf16) (B : FVec Ideal S128x256x128 .bf16)
    (p : Fin 128) (h : Fin 32) (l : Fin 128) :
    matmul (F := Ideal) countDims none A B (constant (F := Ideal) S128x32x128 .f32 0x00000000#32) (ix3 p h l)
      = ∑ k : Fin 256, A (ix3 p h k) * B (ix3 p k l) := by
  simp only [matmul]
  rw [Ideal.matmul_constant_zero_apply, ← Equiv.sum_comp (contrEquiv1 countDims 256 rfl rfl).symm]
  refine Finset.sum_congr rfl fun k _ => ?_
  have hk := contrEquiv1_symm_val countDims 256 rfl rfl k
  have hl : countDims.lhsIdx (ix3 p h l) ((contrEquiv1 countDims 256 rfl rfl).symm k) = ix3 p h k := by
    funext a; apply Fin.ext
    match a with
    | ⟨0, _⟩ => exact lhs_countDims_0 _ _
    | ⟨1, _⟩ => exact lhs_countDims_1 _ _
    | ⟨2, _⟩ => exact (lhs_countDims_2 _ _).trans hk
  have hr : countDims.rhsIdx (ix3 p h l) ((contrEquiv1 countDims 256 rfl rfl).symm k) = ix3 p k l := by
    funext a; apply Fin.ext
    match a with
    | ⟨0, _⟩ => exact rhs_countDims_0 _ _
    | ⟨1, _⟩ => exact (rhs_countDims_1 _ _).trans hk
    | ⟨2, _⟩ => exact rhs_countDims_2 _ _
  rw [hl, hr]

/-! ## The count is positive exactly on a hit -/

/-- The product of the two marks of word `(p, k)`: one where the word is `128 · h + l`, zero elsewhere. -/
theorem mark_mul (v0 : Vec Ideal S128x256 .i32) (hv0 : ∀ j, 0 ≤ (v0 j : BitVec 32).toInt)
    (p : Fin 128) (h : Fin 32) (k : Fin 256) (l : Fin 128) :
    markHi v0 (ix3 p h k) * markLo v0 (ix3 p k l)
      = if (v0 (ix2 p k) : BitVec 32).toInt = (128 * h.val + l.val : Int) then (1 : EReal) else 0 := by
  rw [markHi_apply, markLo_apply]
  have hs := split_iff (v0 (ix2 p k)) (hv0 _) h l
  by_cases hw : (v0 (ix2 p k) : BitVec 32).toInt = (128 * h.val + l.val : Int)
  · obtain ⟨h1, h2⟩ := hs.mpr hw
    rw [if_pos h1, if_pos h2, if_pos hw, mul_one]
  · rw [if_neg hw]
    by_cases h1 : (IntOp.shrsi .vector (v0 (ix2 p k) : BitVec 32) 7#32).toInt = (BitVec.ofNat 32 h.val).toInt
    · have h2 : ¬ (IntOp.andi (v0 (ix2 p k) : BitVec 32) 127#32).toInt = (BitVec.ofNat 32 l.val).toInt :=
        fun h2 => hw (hs.mp ⟨h1, h2⟩)
      rw [if_neg h2, mul_zero]
    · rw [if_neg h1, zero_mul]

/-- On a hit the sum of the products has a term equal to one, and no negative term: it is positive. -/
theorem count_pos_of_hits (v0 : Vec Ideal S128x256 .i32) (hv0 : ∀ j, 0 ≤ (v0 j : BitVec 32).toInt)
    (p : Fin 128) (h : Fin 32) (l : Fin 128) (hh : hits v0 p h l) :
    (0 : EReal) < ∑ k : Fin 256, markHi v0 (ix3 p h k) * markLo v0 (ix3 p k l) := by
  obtain ⟨k, hk⟩ := hh
  have hterm : markHi v0 (ix3 p h k) * markLo v0 (ix3 p k l) = 1 := by rw [mark_mul v0 hv0, if_pos hk]
  have hle : markHi v0 (ix3 p h k) * markLo v0 (ix3 p k l)
      ≤ ∑ k : Fin 256, markHi v0 (ix3 p h k) * markLo v0 (ix3 p k l) :=
    Finset.single_le_sum (f := fun k : Fin 256 => markHi v0 (ix3 p h k) * markLo v0 (ix3 p k l))
      (fun i _ => by
        show (0 : EReal) ≤ markHi v0 (ix3 p h i) * markLo v0 (ix3 p i l)
        rw [mark_mul v0 hv0]
        split
        · exact zero_le_one
        · exact le_refl _)
      (Finset.mem_univ k)
  rw [hterm] at hle
  exact lt_of_lt_of_le zero_lt_one hle

/-- Off a hit every product is zero, and so is their sum. -/
theorem count_zero_of_not_hits (v0 : Vec Ideal S128x256 .i32) (hv0 : ∀ j, 0 ≤ (v0 j : BitVec 32).toInt)
    (p : Fin 128) (h : Fin 32) (l : Fin 128) (hh : ¬ hits v0 p h l) :
    ∑ k : Fin 256, markHi v0 (ix3 p h k) * markLo v0 (ix3 p k l) = 0 :=
  Finset.sum_eq_zero fun k _ => by rw [mark_mul v0 hv0, if_neg fun hk => hh ⟨k, hk⟩]

/-! ## The stored value -/

/-- The stored value is the select, on "the count is positive", between the repeated table and zero. -/
theorem pay1_eq (v0 : Vec Ideal S128x256 .i32) (v28 : Vec Ideal S32x128 .f32) :
    k1_pay1 (F := Ideal) v0 v28
      = select (cmpf .ogt
            (matmul (F := Ideal) countDims none (markHi v0) (markLo v0) (constant (F := Ideal) S128x32x128 .f32 0x00000000#32))
            (broadcast S128x32x128 (Scalar.ofBits (F := Ideal) .f32 0x00000000#32)))
          (broadcastTo S128x32x128 (shapeCast S1x32x128 (shapeCast S1x32x128 (shapeCast S32x128 v28
            shapeCasts_S32x128_S32x128) shapeCasts_S32x128_S1x32x128) shapeCasts_S1x32x128_S1x32x128)
            broadcasts_S1x32x128_S128x32x128)
          (broadcast S128x32x128 (Scalar.ofBits (F := Ideal) .f32 0x00000000#32)) := rfl

/-- The stored value at `(p, h, l)`, with the count written as the sum. -/
theorem pay1_apply (v0 : Vec Ideal S128x256 .i32) (v28 : Vec Ideal S32x128 .f32) (p : Fin 128) (h : Fin 32) (l : Fin 128) :
    k1_pay1 (F := Ideal) v0 v28 (ix3 p h l)
      = Scalar.select (Ideal.cmp .ogt (∑ k : Fin 256, markHi v0 (ix3 p h k) * markLo v0 (ix3 p k l)) 0)
          (v28 (ix2 h l)) (0 : EReal) := by
  rw [pay1_eq, select_apply, cmpf_apply, count_apply, tableOverLead_apply, Ideal.cmpf_def]
  show Scalar.select (Ideal.cmp .ogt _ (Ideal.ofBits .f32 0x00000000#32)) (v28 (ix2 h l)) (Ideal.ofBits .f32 0x00000000#32) = _
  rw [Ideal.ofBits_zero_f32]

theorem pay1_of_hits (v0 : Vec Ideal S128x256 .i32) (v28 : Vec Ideal S32x128 .f32)
    (hv0 : ∀ j, 0 ≤ (v0 j : BitVec 32).toInt) (p : Fin 128) (h : Fin 32) (l : Fin 128) (hh : hits v0 p h l) :
    k1_pay1 (F := Ideal) v0 v28 (ix3 p h l) = v28 (ix2 h l) := by
  have hc : Ideal.cmp .ogt (∑ k : Fin 256, markHi v0 (ix3 p h k) * markLo v0 (ix3 p k l)) 0 = 1#1 := by
    simp [Ideal.cmp, count_pos_of_hits v0 hv0 p h l hh]
  rw [pay1_apply, hc, select_one]

theorem pay1_of_not_hits (v0 : Vec Ideal S128x256 .i32) (v28 : Vec Ideal S32x128 .f32)
    (hv0 : ∀ j, 0 ≤ (v0 j : BitVec 32).toInt) (p : Fin 128) (h : Fin 32) (l : Fin 128) (hh : ¬ hits v0 p h l) :
    k1_pay1 (F := Ideal) v0 v28 (ix3 p h l) = 0 := by
  have hc : Ideal.cmp .ogt (∑ k : Fin 256, markHi v0 (ix3 p h k) * markLo v0 (ix3 p k l)) 0 = 0#1 := by
    rw [count_zero_of_not_hits v0 hv0 p h l hh]
    simp [Ideal.cmp]
  rw [pay1_apply, hc, select_zero]

end Cert.KernelIdeal.Hand

end
-- ==== Proof.Region1.lean ====
/-
  The second region's array. Point `t` of its grid of thirty-two loads rows `128·t … 128·t + 127` of the index
  table and the whole 32 × 128 table of scores, and writes rows `128·t … 128·t + 127` of the three-axis result:
  at `(p, h, l)` the score at `(h, l)` when some word of row `p` of the block is `128·h + l`, zero otherwise.
  The thirty-two blocks tile the result, so the region leaves in it, at `(b, h, l)`, the score at `(h, l)` where
  row `b` of the index table holds the word `128·h + l`, and zero elsewhere.
-/
import proofs.«411610_j9139690405988_3_alg».proof.Proof.Gen.KernelIdeal.Frame
import proofs.«411610_j9139690405988_3_alg».proof.Proof.Pay1
import proofs.«411610_j9139690405988_3_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem zero2' : (![0, 0] : Fin 2 → Nat) = fun _ => 0 := funext fun a => by fin_cases a <;> rfl
theorem zero3 : (![0, 0, 0] : Fin 3 → Nat) = fun _ => 0 := funext fun a => by fin_cases a <;> rfl

/-- Row `b` of the index table holds the word `128·h + l`. -/
def rowHolds (x2 : Vec Ideal S4096x256 .i32) (b : Fin 4096) (h : Fin 32) (l : Fin 128) : Prop :=
  ∃ k : Fin 256, (x2 (ix2 b k) : BitVec 32).toInt = (128 * h.val + l.val : Int)

open Classical in
/-- The masked score at `(b, h, l)`: the score at `(h, l)` where row `b` holds the word `128·h + l`, else zero. -/
def maskAt (x2 : Vec Ideal S4096x256 .i32) (sv : Vec Ideal S32x128 .f32) (b : Fin 4096) (h : Fin 32) (l : Fin 128) : EReal :=
  if rowHolds x2 b h l then sv (ix2 h l) else 0

theorem maskAt_of_holds (x2 : Vec Ideal S4096x256 .i32) (sv : Vec Ideal S32x128 .f32) (b : Fin 4096) (h : Fin 32) (l : Fin 128)
    (hh : rowHolds x2 b h l) : maskAt x2 sv b h l = sv (ix2 h l) := by unfold maskAt; exact if_pos hh

theorem maskAt_of_not_holds (x2 : Vec Ideal S4096x256 .i32) (sv : Vec Ideal S32x128 .f32) (b : Fin 4096) (h : Fin 32) (l : Fin 128)
    (hh : ¬ rowHolds x2 b h l) : maskAt x2 sv b h l = 0 := by unfold maskAt; exact if_neg hh

/-- The masked scores over batch × 32 × 128. -/
def maskRows (x2 : Vec Ideal S4096x256 .i32) (sv : Vec Ideal S32x128 .f32) : Vec Ideal S4096x32x128 .f32 :=
  fun j => maskAt x2 sv ⟨(j 0).val, (j 0).isLt⟩ ⟨(j 1).val, (j 1).isLt⟩ ⟨(j 2).val, (j 2).isLt⟩

/-- The printed index maps over the grid: the index block and the output block move down the rows with the point,
    the table of scores stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- What point `t` writes back is block `t` of the masked scores of the arrays as the region finds them. -/
theorem flushed1_eq (c : Dev nD) (hV : ∀ j, 0 ≤ ((V c main_arg2 : Vec Ideal S4096x256 .i32) j : BitVec 32).toInt) (t : Fin cfg1.N) :
    (dat1 V c).flushed 2 t = ((cfg1.win 2).blk t).view.read (Elt Ideal) (maskRows (V c main_arg2) (V c main_v1)) := by
  show (cfg1.win 2).cut (grid1.coords t) ((dat1 V c).after 2 t) = _
  rw [after1_2]
  unfold out1_2
  rw [View.canon_unit_zero zero3]
  simp only [View.ld_unit_zero (S := S128x256) zero2', View.ld_unit_zero (S := S32x128) zero2']
  obtain ⟨e0, e1, e2, e3, e4, e5, e6⟩ := index_maps1 t
  funext j
  have hN : cfg1.N = 32 := N_1
  have ht : t.val < 32 := hN ▸ t.isLt
  have hj0 : (j 0).val < 128 := (j 0).isLt
  have hj1 : (j 1).val < 32 := (j 1).isLt
  have hj2 : (j 2).val < 128 := (j 2).isLt
  have hb : 128 * t.val + (j 0).val < 4096 := by omega
  have hjj : (j : S128x32x128.Idx) = ix3 (⟨(j 0).val, hj0⟩ : Fin 128) (⟨(j 1).val, hj1⟩ : Fin 32) (⟨(j 2).val, hj2⟩ : Fin 128) :=
    funext fun a => Fin.ext (by match a with | ⟨0, _⟩ => rfl | ⟨1, _⟩ => rfl | ⟨2, _⟩ => rfl)
  show k1_pay1 (iblk1 V c 0 t) (iblk1 V c 1 t) j
      = maskRows (V c main_arg2) (V c main_v1) (((cfg1.win 2).blk t).view.emb j)
  have r0 : ∀ (p : Fin 128) (hp : 128 * t.val + p.val < 4096) (k : Fin 256),
      (iblk1 V c 0 t : Vec Ideal S128x256 .i32) (ix2 p k)
        = (V c main_arg2 : Vec Ideal S4096x256 .i32) (ix2 (⟨128 * t.val + p.val, hp⟩ : Fin 4096) k) := by
    intro p hp k
    unfold iblk1
    rw [View.read_apply]
    show V c main_arg2 _ = V c main_arg2 _
    congr 1
    funext a
    apply Fin.ext
    match a with
    | ⟨0, _⟩ => show win1_0.index t (0 : Fin 2) * 128 + 1 * p.val = 128 * t.val + p.val; omega
    | ⟨1, _⟩ => show win1_0.index t (1 : Fin 2) * 256 + 1 * k.val = k.val; omega
  have r1 : ∀ (h : Fin 32) (l : Fin 128),
      (iblk1 V c 1 t : Vec Ideal S32x128 .f32) (ix2 h l) = (V c main_v1 : Vec Ideal S32x128 .f32) (ix2 h l) := by
    intro h l
    unfold iblk1
    rw [View.read_apply]
    show V c main_v1 _ = V c main_v1 _
    congr 1
    funext a
    apply Fin.ext
    match a with
    | ⟨0, _⟩ => show win1_1.index t (0 : Fin 2) * 32 + 1 * h.val = h.val; omega
    | ⟨1, _⟩ => show win1_1.index t (1 : Fin 2) * 128 + 1 * l.val = l.val; omega
  have hv0 : ∀ y, 0 ≤ ((iblk1 V c 0 t : Vec Ideal S128x256 .i32) y : BitVec 32).toInt := fun y => by
    unfold iblk1; rw [View.read_apply]; exact hV _
  have em0 : ((((cfg1.win 2).blk t).view.emb j) 0).val = 128 * t.val + (j 0).val := by
    show win1_2.index t (0 : Fin 3) * 128 + 1 * (j 0).val = _; omega
  have em1 : ((((cfg1.win 2).blk t).view.emb j) 1).val = (j 1).val := by
    show win1_2.index t (1 : Fin 3) * 32 + 1 * (j 1).val = _; omega
  have em2 : ((((cfg1.win 2).blk t).view.emb j) 2).val = (j 2).val := by
    show win1_2.index t (2 : Fin 3) * 128 + 1 * (j 2).val = _; omega
  have hR : maskRows (V c main_arg2) (V c main_v1) (((cfg1.win 2).blk t).view.emb j)
      = maskAt (V c main_arg2) (V c main_v1) ⟨128 * t.val + (j 0).val, hb⟩ ⟨(j 1).val, hj1⟩ ⟨(j 2).val, hj2⟩ := by
    unfold maskRows
    congr 1
    · exact Fin.ext em0
    · exact Fin.ext em1
    · exact Fin.ext em2
  rw [hR]
  have hiff : hits (iblk1 V c 0 t) ⟨(j 0).val, hj0⟩ ⟨(j 1).val, hj1⟩ ⟨(j 2).val, hj2⟩
      ↔ rowHolds (V c main_arg2) ⟨128 * t.val + (j 0).val, hb⟩ ⟨(j 1).val, hj1⟩ ⟨(j 2).val, hj2⟩ := by
    unfold hits rowHolds
    exact exists_congr fun k => by rw [r0 ⟨(j 0).val, hj0⟩ hb k]
  refine (congrArg (k1_pay1 (F := Ideal) (iblk1 V c 0 t) (iblk1 V c 1 t)) hjj).trans ?_
  by_cases hh : hits (iblk1 V c 0 t) ⟨(j 0).val, hj0⟩ ⟨(j 1).val, hj1⟩ ⟨(j 2).val, hj2⟩
  · rw [maskAt_of_holds _ _ _ _ _ (hiff.mp hh)]
    exact (pay1_of_hits (iblk1 V c 0 t) (iblk1 V c 1 t) hv0 _ _ _ hh).trans (r1 _ _)
  · rw [maskAt_of_not_holds _ _ _ _ _ (fun h' => hh (hiff.mpr h'))]
    exact pay1_of_not_hits (iblk1 V c 0 t) (iblk1 V c 1 t) hv0 _ _ _ hh

/-- An index of the result is in point `t`'s block iff each coordinate is in the block's range on its axis. -/
theorem mem_blk1 (t : Fin cfg1.N) (i : S4096x32x128.Idx) :
    i ∈ ((cfg1.win 2).blk t).view.set ↔ ∀ a : Fin 3, win1_2.index t a * S128x32x128.size a ≤ (i a).val ∧ (i a).val < win1_2.index t a * S128x32x128.size a + S128x32x128.size a := by
  show i ∈ ((View.whole main_v2).slice (win1_2.rect t)).set ↔ _
  rw [View.set_slice_whole, Rect.mem_set_unit]
  exact Iff.rfl

/-- The thirty-two blocks tile the result (row `b` is in block `b / 128`), so the region leaves the masked scores. -/
theorem final1 (c : Dev nD) (hV : ∀ j, 0 ≤ ((V c main_arg2 : Vec Ideal S4096x256 .i32) j : BitVec 32).toInt) :
    (dat1 V c).arrAt 2 cfg1.N = maskRows (V c main_arg2) (V c main_v1) :=
  (dat1 V c).arrAt_eq_of_cover 2 (maskRows (V c main_arg2) (V c main_v1)) (fun t _ => flushed1_eq V c hV t) fun i => by
    have hi0 : ((i : S4096x32x128.Idx) 0).val < 4096 := (i 0).isLt
    have hi1 : ((i : S4096x32x128.Idx) 1).val < 32 := (i 1).isLt
    have hi2 : ((i : S4096x32x128.Idx) 2).val < 128 := (i 2).isLt
    have hN : cfg1.N = 32 := N_1
    have hlt : ((i : S4096x32x128.Idx) 0).val / 128 < cfg1.N := by rw [hN]; omega
    obtain ⟨e0, e1, e2, e3, e4, e5, e6⟩ := index_maps1 ⟨((i : S4096x32x128.Idx) 0).val / 128, hlt⟩
    have e4' : win1_2.index ⟨((i : S4096x32x128.Idx) 0).val / 128, hlt⟩ (0 : Fin 3) = ((i : S4096x32x128.Idx) 0).val / 128 := e4
    refine ⟨⟨((i : S4096x32x128.Idx) 0).val / 128, hlt⟩, flush1_2 _, ?_⟩
    rw [mem_blk1]
    intro a
    match a with
    | ⟨0, _⟩ =>
      show win1_2.index _ (0 : Fin 3) * 128 ≤ ((i : S4096x32x128.Idx) 0).val ∧ ((i : S4096x32x128.Idx) 0).val < win1_2.index _ (0 : Fin 3) * 128 + 128
      rw [e4']; omega
    | ⟨1, _⟩ =>
      show win1_2.index _ (1 : Fin 3) * 32 ≤ ((i : S4096x32x128.Idx) 1).val ∧ ((i : S4096x32x128.Idx) 1).val < win1_2.index _ (1 : Fin 3) * 32 + 32
      rw [e5]; omega
    | ⟨2, _⟩ =>
      show win1_2.index _ (2 : Fin 3) * 128 ≤ ((i : S4096x32x128.Idx) 2).val ∧ ((i : S4096x32x128.Idx) 2).val < win1_2.index _ (2 : Fin 3) * 128 + 128
      rw [e6]; omega

end Cert.KernelIdeal.Hand

end
-- ==== Proof.KernelValue.lean ====
/-
  The kernel program's result as one function of its arguments.

  The result buffer is filled by the last host operation, a reshape of the second region's three-axis array
  `[4096, 32, 128]` to `[4096, 4096]`: entry `(b, q)` is the array's entry `(b, q / 128, q % 128)`. That array is the
  masked scores of the index table and of the 32 × 128 table of scores the second region finds; the latter is the
  reshape of the first region's one-row array, so its entry `(h, l)` is lane `128·h + l` of the row, the score of
  concept `128·h + l`. Row `b` holds the word `128·(q / 128) + q % 128 = q` exactly when it samples concept `q`:
  the result is the specification `G`.
-/
import proofs.«411610_j9139690405988_3_alg».proof.Proof.Gen.KernelIdeal.Frame
import proofs.«411610_j9139690405988_3_alg».proof.Proof.Region0
import proofs.«411610_j9139690405988_3_alg».proof.Proof.Region1
import proofs.«411610_j9139690405988_3_alg».proof.Proof.Spec
import Idealize.ShloMosaic.Lib.Pipeline.Value
import Idealize.ShloMosaic.Lib.StableHlo.Run
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- The last host operation: the result buffer is the second region's array, reshaped. -/
theorem result_reshape (c : Dev nD) : (W4 m ρ c (Proc.devRef .tc main_v3) : Vec Ideal S4096x4096 .f32)
    = shapeCast S4096x4096 (W3 m ρ c (Proc.devRef .tc main_v2) : Vec Ideal S4096x32x128 .f32) shapeCasts_S4096x32x128_S4096x4096 := by
  show StableHlo.after hostOps2 (W3 m ρ c) (Proc.devRef .tc main_v3) = _
  after_results
  rfl

/-- The host operation between the regions: the table of scores the second region finds is the first region's
    row, reshaped. -/
theorem scores_reshape (c : Dev nD) : (W2 m ρ c (Proc.devRef .tc main_v1) : Vec Ideal S32x128 .f32)
    = shapeCast S32x128 (W1 m ρ c (Proc.devRef .tc main_v0) : Vec Ideal S1x4096 .f32) shapeCasts_S1x4096_S32x128 := by
  show StableHlo.after hostOps1 (W1 m ρ c) (Proc.devRef .tc main_v1) = _
  after_results
  rfl

/-- The index table the second region finds is the launched one: neither the first region nor the reshape writes it. -/
theorem idx_kept (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- The first region's row at the launch contents: the scores of the two launched tables. -/
theorem row_eq (c : Dev nD) : (W1 m ρ c (Proc.devRef .tc main_v0) : Vec Ideal S1x4096 .f32)
    = scoreRow (m ((c : Thread nD τ).loc main_arg0)) (m ((c : Thread nD τ).loc main_arg1)) :=
  (W1_arr m ρ c 2).trans (final0 (V0 m ρ) c)

/-- The table of scores the second region finds, at `(h, l)`: the score of concept `128·h + l`. -/
theorem scores_apply (c : Dev nD) (h : Fin 32) (l : Fin 128) (hq : 128 * h.val + l.val < 4096) :
    (W2 m ρ c (Proc.devRef .tc main_v1) : Vec Ideal S32x128 .f32) (ix2 h l)
      = Cert.Spec.score (m ((c : Thread nD τ).loc main_arg0)) (m ((c : Thread nD τ).loc main_arg1)) ⟨128 * h.val + l.val, hq⟩ := by
  rw [scores_reshape, row_eq]
  refine (shapeCast_apply _ _ _ (ix2 (0 : Fin 1) (⟨128 * h.val + l.val, hq⟩ : Fin 4096)) (by
    rw [Shape.rowMajor_val_two, Shape.rowMajor_val_two]
    show 0 * 4096 + (128 * h.val + l.val) = h.val * 128 + l.val
    omega)).trans ?_
  rfl

/-- The result is the specification of the launched arguments, when no index word is negative. -/
theorem result_eq (c : Dev nD)
    (hm : ∀ j, 0 ≤ ((m ((c : Thread nD τ).loc main_arg2) : Vec Ideal S4096x256 .i32) j : BitVec 32).toInt) :
    (W4 m ρ c (Proc.devRef .tc main_v3) : Vec Ideal S4096x4096 .f32)
      = Cert.Spec.G (m ((c : Thread nD τ).loc main_arg0)) (m ((c : Thread nD τ).loc main_arg1)) (m ((c : Thread nD τ).loc main_arg2)) := by
  have hV2 : ∀ j, 0 ≤ ((V2 m ρ c main_arg2 : Vec Ideal S4096x256 .i32) j : BitVec 32).toInt := by
    intro j
    have e : (V2 m ρ c main_arg2 : Vec Ideal S4096x256 .i32) = m ((c : Thread nD τ).loc main_arg2) := idx_kept m ρ c
    rw [e]; exact hm j
  have hmask : (W3 m ρ c (Proc.devRef .tc main_v2) : Vec Ideal S4096x32x128 .f32)
      = maskRows (m ((c : Thread nD τ).loc main_arg2)) (W2 m ρ c (Proc.devRef .tc main_v1)) := by
    refine ((W3_arr m ρ c 2).trans (final1 (V2 m ρ) c hV2)).trans ?_
    have e : (V2 m ρ c main_arg2 : Vec Ideal S4096x256 .i32) = m ((c : Thread nD τ).loc main_arg2) := idx_kept m ρ c
    rw [e]
  funext i
  obtain ⟨b, q, rfl⟩ : ∃ (b : Fin 4096) (q : Fin 4096), i = ix2 b q := ⟨i 0, i 1, eq_ix2 i⟩
  have hq : q.val < 4096 := q.isLt
  have hh : q.val / 128 < 32 := by omega
  have hl : q.val % 128 < 128 := by omega
  have hsum : 128 * (q.val / 128) + q.val % 128 < 4096 := by omega
  rw [result_reshape, hmask]
  refine (shapeCast_apply _ _ _ (ix3 b (⟨q.val / 128, hh⟩ : Fin 32) (⟨q.val % 128, hl⟩ : Fin 128)) (by
    rw [Shape.rowMajor_val_three, Shape.rowMajor_val_two]
    show (b.val * 32 + q.val / 128) * 128 + q.val % 128 = b.val * 4096 + q.val
    omega)).trans ?_
  show maskAt (m ((c : Thread nD τ).loc main_arg2)) (W2 m ρ c (Proc.devRef .tc main_v1)) b ⟨q.val / 128, hh⟩ ⟨q.val % 128, hl⟩ = _
  have hiff : rowHolds (m ((c : Thread nD τ).loc main_arg2)) b ⟨q.val / 128, hh⟩ ⟨q.val % 128, hl⟩
      ↔ Cert.Spec.sampled (m ((c : Thread nD τ).loc main_arg2)) b q := by
    unfold rowHolds Cert.Spec.sampled
    refine exists_congr fun k => ?_
    have : (128 * ((⟨q.val / 128, hh⟩ : Fin 32).val : Int) + ((⟨q.val % 128, hl⟩ : Fin 128).val : Int)) = (q.val : Int) := by
      show (128 * ((q.val / 128 : Nat) : Int) + ((q.val % 128 : Nat) : Int)) = (q.val : Int)
      omega
    rw [this]
  have hqq : (⟨128 * (q.val / 128) + q.val % 128, hsum⟩ : Fin 4096) = q := Fin.ext (by show 128 * (q.val / 128) + q.val % 128 = q.val; omega)
  by_cases hs : Cert.Spec.sampled (m ((c : Thread nD τ).loc main_arg2)) b q
  · rw [maskAt_of_holds _ _ _ _ _ (hiff.mpr hs), Cert.Spec.G_of_sampled _ _ _ _ _ hs]
    refine (scores_apply m ρ c ⟨q.val / 128, hh⟩ ⟨q.val % 128, hl⟩ hsum).trans ?_
    rw [hqq]
  · rw [maskAt_of_not_holds _ _ _ _ _ (fun h' => hs (hiff.mp h')), Cert.Spec.G_of_not_sampled _ _ _ _ _ hs]

end Cert.KernelIdeal.Hand

end
-- ==== Proof.LibScatterSet.lean ====
/-
  A scatter that SETS one constant value.

  `Host.scatter d f x idx upd` is the left fold, over the update indices in row-major order, of the step that
  replaces the element at the update's result index (when that index lies inside the operand) by `f` of the
  element and the update's value. When the body returns the update (`f = fun _ b => b`) and every update holds
  the same value `v`, the order of the updates does not matter: the result holds `v` at every index that SOME
  update lands at, and the operand's element everywhere else.
-/
import Idealize.ShloMosaic.PureOps.ShapeOps

namespace Idealize.ShloMosaic

section ScatterSet
variable {s si u : Shape} {α : Type} {w : Nat}

open Classical in
/-- The fold of the SET step with one value `v` over ANY list `L` of update positions: `v` at the indices some
    position of `L` lands at, the start array's element elsewhere. By induction on `L`: the first position
    either lands at `i` (then `i` holds `v` from there on, whatever follows, since every later write is `v` too)
    or it does not (then it leaves the element at `i` alone). -/
theorem Host.scatter_set_const_foldl (d : ScatterDims s si u) (idx : IVec si w) (v : α)
    (L : List (Fin u.numel)) (x : s.Idx → α) (i : s.Idx) :
    L.foldl (fun r n =>
        match d.resultIdx? (u.rowMajor.symm n) idx with
        | some i₀ => fun i' => if i' = i₀ then (fun (_ b : α) => b) (r i₀) ((fun _ : u.Idx => v) (u.rowMajor.symm n)) else r i'
        | none => r) x i
      = if ∃ n ∈ L, d.resultIdx? (u.rowMajor.symm n) idx = some i then v else x i := by
  induction L generalizing x with
  | nil => simp
  | cons n L ih =>
    rw [List.foldl_cons, ih]
    by_cases hL : ∃ m ∈ L, d.resultIdx? (u.rowMajor.symm m) idx = some i
    · obtain ⟨m, hm, h⟩ := hL
      rw [if_pos ⟨m, hm, h⟩, if_pos ⟨m, List.mem_cons_of_mem _ hm, h⟩]
    · rw [if_neg hL]
      cases hn : d.resultIdx? (u.rowMajor.symm n) idx with
      | none =>
        have hno : ¬ ∃ m ∈ n :: L, d.resultIdx? (u.rowMajor.symm m) idx = some i := by
          rintro ⟨m, hm, h⟩
          rcases List.mem_cons.1 hm with rfl | hm
          · rw [hn] at h; cases h
          · exact hL ⟨m, hm, h⟩
        rw [if_neg hno]
      | some i₀ =>
        by_cases hi : i = i₀
        · subst hi
          rw [if_pos ⟨n, List.mem_cons_self, hn⟩]
          exact if_pos rfl
        · have hno : ¬ ∃ m ∈ n :: L, d.resultIdx? (u.rowMajor.symm m) idx = some i := by
            rintro ⟨m, hm, h⟩
            rcases List.mem_cons.1 hm with rfl | hm
            · rw [hn] at h; exact hi (Option.some.inj h).symm
            · exact hL ⟨m, hm, h⟩
          rw [if_neg hno]
          exact if_neg hi

open Classical in
/-- A scatter whose body returns the update, of updates that all hold `v`: at index `i` the result is `v` when
    some update index `j` has result index `i`, and the operand's element when none has. (Every update index is
    met by the fold, because the row-major numbering is a bijection onto the positions the fold runs over.) -/
theorem Host.scatter_set_const (d : ScatterDims s si u) (x : s.Idx → α) (idx : IVec si w) (v : α) (i : s.Idx) :
    Host.scatter d (fun _ b => b) x idx (fun _ => v) i
      = if ∃ j : u.Idx, d.resultIdx? j idx = some i then v else x i := by
  refine (Host.scatter_set_const_foldl d idx v (List.finRange u.numel) x i).trans ?_
  refine if_congr ⟨?_, ?_⟩ rfl rfl
  · rintro ⟨n, _, h⟩; exact ⟨u.rowMajor.symm n, h⟩
  · rintro ⟨j, h⟩
    exact ⟨u.rowMajor j, List.mem_finRange _, by rw [Equiv.symm_apply_apply]; exact h⟩

end ScatterSet

end Idealize.ShloMosaic
-- ==== Proof.RefValue.lean ====
/-
  The reference's result is the specification `G` of its three arguments, when no index word is negative.
-/
import proofs.«411610_j9139690405988_3_alg».proof.Proof.Gen.ReferenceIdeal.Read
import proofs.«411610_j9139690405988_3_alg».proof.Proof.Spec
import proofs.«411610_j9139690405988_3_alg».proof.Proof.LibScatterSet
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Cert.ReferenceIdeal.RefValue

open Cert.ReferenceIdeal Cert.ReferenceIdeal.Gen Cert.ReferenceIdeal.Read

/-! ## Where an update lands -/

/-- An update index lands at `i` exactly when, on every operand axis, the start of its window plus its window
    coordinate is `i`'s coordinate: the coordinates of an index are in range, so the update is not dropped. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h]
    constructor
    · intro e a
      have e' := congrFun (Option.some.inj e) a
      have := congrArg Fin.val e'
      simp only at this
      have h0 := (h a).1
      omega
    · intro e
      refine congrArg some (funext fun a => Fin.ext ?_)
      have := e a
      simp only
      omega
  · rw [dif_neg h]
    constructor
    · intro e; cases e
    · intro e
      exact absurd (fun a => by have := e a; have := (i a).isLt; omega) h

/-- The scatter of this program: both operand axes are inserted, so no window coordinate. -/
theorem window_eq (j : S4096x256.Idx) (a : Fin S4096x4096.rank) :
    scatter_S4096x4096_S4096x256x2_S4096x256_n_01_01_2.window j a = 0 := by
  unfold ScatterDims.window
  rw [dif_neg]
  show a ∉ ([] : List (Fin S4096x4096.rank))
  exact List.not_mem_nil

/-- The start on operand axis 0 is component 0 of the update's index vector, read signed. -/
theorem start_zero (j : S4096x256.Idx) (idx : IVec S4096x256x2 32) :
    scatter_S4096x4096_S4096x256x2_S4096x256_n_01_01_2.start j idx 0 = (idx (ix3 (j 0) (j 1) 0)).toInt := by
  unfold ScatterDims.start
  rw [dif_pos (by decide)]
  refine congrArg (fun k => (idx k).toInt) (funext fun b => Fin.ext ?_)
  match b with
  | ⟨0, _⟩ => rfl
  | ⟨1, _⟩ => rfl
  | ⟨2, _⟩ => rfl

/-- The start on operand axis 1 is component 1 of the update's index vector, read signed. -/
theorem start_one (j : S4096x256.Idx) (idx : IVec S4096x256x2 32) :
    scatter_S4096x4096_S4096x256x2_S4096x256_n_01_01_2.start j idx 1 = (idx (ix3 (j 0) (j 1) 1)).toInt := by
  unfold ScatterDims.start
  rw [dif_pos (by decide)]
  refine congrArg (fun k => (idx k).toInt) (funext fun b => Fin.ext ?_)
  match b with
  | ⟨0, _⟩ => rfl
  | ⟨1, _⟩ => rfl
  | ⟨2, _⟩ => rfl

/-- For this program's scatter, update `(p, q)` lands at `(b, c)` exactly when its index vector, read signed, is
    `(b, c)`. -/
theorem lands_iff (j : S4096x256.Idx) (idx : IVec S4096x256x2 32) (i : S4096x4096.Idx) :
    scatter_S4096x4096_S4096x256x2_S4096x256_n_01_01_2.resultIdx? j idx = some i ↔
      (idx (ix3 (j 0) (j 1) 0)).toInt = ((i 0).val : Int) ∧ (idx (ix3 (j 0) (j 1) 1)).toInt = ((i 1).val : Int) := by
  rw [resultIdx?_eq_some_iff]
  constructor
  · intro h
    have h0 := h 0
    have h1 := h 1
    rw [window_eq, start_zero] at h0
    rw [window_eq, start_one] at h1
    exact ⟨by simpa using h0, by simpa using h1⟩
  · rintro ⟨h0, h1⟩ a
    rw [window_eq]
    match a with
    | ⟨0, _⟩ => rw [show (⟨0, by decide⟩ : Fin S4096x4096.rank) = 0 from rfl, start_zero, h0]; simp
    | ⟨1, _⟩ => rw [show (⟨1, by decide⟩ : Fin S4096x4096.rank) = 1 from rfl, start_one, h1]; simp

/-! ## The index vectors -/

/-- A word that is not negative is not below zero in the signed order. -/
theorem cmpi_slt_zero_of_nonneg (x : BitVec 32) (h : 0 ≤ x.toInt) : IntOp.cmpi .slt x 0#32 = 0#1 := by
  show BitVec.ofBool (x.slt 0#32) = 0#1
  rw [BitVec.slt, decide_eq_false (by rw [BitVec.toInt_zero]; omega)]
  rfl

/-- A row number, as a word, reads back signed as itself. -/
theorem toInt_ofNat_row (p : Fin 4096) : (BitVec.ofNat 32 p.val).toInt = (p.val : Int) := by
  have hp := p.isLt
  rw [BitVec.toInt_eq_toNat_cond, BitVec.toNat_ofNat, Nat.mod_eq_of_lt (by omega), if_pos (by omega)]

/-- Component 0 of the index vector of update `(p, q)` is the row number `p`: the wrap of a negative row number
    never applies. -/
theorem v16_zero (x2 : IVec S4096x256 32) (p : Fin 4096) (q : Fin 256) :
    val_main_v16 (F := Ideal) x2 (ix3 p q 0) = BitVec.ofNat 32 p.val := by
  unfold val_main_v16
  refine (concatenate_pair_apply_left (t := S4096x256x2) (s₁ := S4096x256x1) (s₂ := S4096x256x1) 2 _ _ _
    (ix3 p q 0) rfl (ix3 p q 0) ?_).trans ?_
  · intro b
    match b with
    | ⟨0, _⟩ => rfl
    | ⟨1, _⟩ => rfl
    | ⟨2, _⟩ => rfl
  · rw [val_main_v14_apply, val_main_v13_apply, val_main_v7_apply, val_main_v4_apply, val_main_v2_apply,
      val_main_v3_apply, val_main_v1_apply, val_main_c_apply]
    show Scalar.select (IntOp.cmpi .slt (BitVec.ofNat 32 p.val) 0#32) _ (BitVec.ofNat 32 p.val) = _
    rw [cmpi_slt_zero_of_nonneg _ (by rw [toInt_ofNat_row]; omega), select_zero]

/-- Component 1 of the index vector of update `(p, q)` is the index word `x2[p, q]`: it is not negative, so the
    wrap never applies. -/
theorem v16_one (x2 : IVec S4096x256 32) (hx2 : ∀ j, 0 ≤ (x2 j).toInt) (p : Fin 4096) (q : Fin 256) :
    val_main_v16 (F := Ideal) x2 (ix3 p q 1) = x2 (ix2 p q) := by
  unfold val_main_v16
  refine (concatenate_pair_apply_right (t := S4096x256x2) (s₁ := S4096x256x1) (s₂ := S4096x256x1) 2 _ _ _
    (ix3 p q 1) rfl rfl (ix3 p q 0) ?_ rfl).trans ?_
  · intro b hb
    match b with
    | ⟨0, _⟩ => rfl
    | ⟨1, _⟩ => rfl
    | ⟨2, _⟩ => exact absurd rfl hb
  · rw [val_main_v15_apply, val_main_v12_apply, val_main_v9_apply, val_main_v8_apply, val_main_c_1_apply]
    have hi : idx_main_v15 (ix3 p q (0 : Fin 1)) = ix2 p q := by
      funext a
      match a with
      | ⟨0, _⟩ => rfl
      | ⟨1, _⟩ => rfl
    rw [hi, cmpi_slt_zero_of_nonneg _ (hx2 _), select_zero]

/-! ## The two factors -/

/-- The broadcast factor at `(b, c)` is the score of concept `c`: the zero literal plus the inner product of row
    `c` of the two tables. -/
theorem v22_eq (x0 x1 : FVec Ideal S4096x1024 .f32) (b c : Fin 4096) :
    val_main_v22 (F := Ideal) x0 x1 (ix2 b c) = Cert.Spec.score x0 x1 c := by
  rw [val_main_v22_apply, val_main_v21_apply, val_main_v20_apply, val_main_cst_4_apply]
  show Ideal.ofBits .f32 0x00000000#32 + _ = _
  rw [Ideal.ofBits_zero_f32, zero_add]
  unfold Cert.Spec.score
  refine Finset.sum_congr rfl fun k _ => ?_
  rw [val_main_v19_apply]
  have hi : idx_main_v20 (idx_main_v21 (idx_main_v22 (ix2 b c))) k = ix2 c k := by
    funext a
    match a with
    | ⟨0, _⟩ => rfl
    | ⟨1, _⟩ => rfl
  rw [hi]
  rfl

open Classical in
/-- The mask at `(b, c)`: one where row `b` of the index table samples `c`, zero elsewhere. An update `(p, q)`
    lands at `(b, c)` exactly when `p = b` and the word `x2[p, q]` is `c`; the written value is the literal one, the
    operand the literal zero. -/
theorem v18_eq (x2 : IVec S4096x256 32) (hx2 : ∀ j, 0 ≤ (x2 j).toInt) (b c : Fin 4096) :
    val_main_v18 (F := Ideal) x2 (ix2 b c) = if Cert.Spec.sampled x2 b c then (1 : EReal) else 0 := by
  have hiff : (∃ j : S4096x256.Idx, scatter_S4096x4096_S4096x256x2_S4096x256_n_01_01_2.resultIdx? j
      (val_main_v16 (F := Ideal) x2) = some (ix2 b c)) ↔ Cert.Spec.sampled x2 b c := by
    constructor
    · rintro ⟨j, hj⟩
      obtain ⟨p, q, rfl⟩ : ∃ p q, j = ix2 p q := ⟨j 0, j 1, eq_ix2 j⟩
      obtain ⟨h0, h1⟩ := (lands_iff _ _ _).1 hj
      change (val_main_v16 (F := Ideal) x2 (ix3 p q 0)).toInt = (b.val : Int) at h0
      change (val_main_v16 (F := Ideal) x2 (ix3 p q 1)).toInt = (c.val : Int) at h1
      rw [v16_zero, toInt_ofNat_row] at h0
      rw [v16_one x2 hx2] at h1
      have hpb : p = b := Fin.ext (by exact_mod_cast h0)
      subst hpb
      exact ⟨q, h1⟩
    · rintro ⟨k, hk⟩
      refine ⟨ix2 b k, (lands_iff _ _ _).2 ⟨?_, ?_⟩⟩
      · show (val_main_v16 (F := Ideal) x2 (ix3 b k 0)).toInt = (b.val : Int)
        rw [v16_zero, toInt_ofNat_row]
      · show (val_main_v16 (F := Ideal) x2 (ix3 b k 1)).toInt = (c.val : Int)
        rw [v16_one x2 hx2]
        exact hk
  have hone : val_main_v17 (F := Ideal) = fun _ => (1 : EReal) := by
    funext i
    rw [val_main_v17_apply, val_main_cst_3_apply]
    exact Ideal.ofBits_one_f32
  unfold val_main_v18
  rw [hone, Host.scatter_set_const]
  by_cases h : Cert.Spec.sampled x2 b c
  · rw [if_pos (hiff.2 h), if_pos h]
  · rw [if_neg (fun e => h (hiff.1 e)), if_neg h, val_main_v0_apply, val_main_cst_apply]
    exact Ideal.ofBits_zero_f32

/-- The reference's result, index by index: the mask times the score. -/
theorem ref_eq (x0 x1 : FVec Ideal S4096x1024 .f32) (x2 : IVec S4096x256 32) (hx2 : ∀ j, 0 ≤ (x2 j).toInt) :
    val_main_v23 (F := Ideal) x0 x1 x2 = Cert.Spec.G x0 x1 x2 := by
  funext i
  obtain ⟨b, c, rfl⟩ : ∃ b c, i = ix2 b c := ⟨i 0, i 1, eq_ix2 i⟩
  rw [val_main_v23_apply]
  show val_main_v18 (F := Ideal) x2 (ix2 b c) * val_main_v22 (F := Ideal) x0 x1 (ix2 b c) = _
  rw [v22_eq, v18_eq x2 hx2]
  by_cases h : Cert.Spec.sampled x2 b c
  · rw [if_pos h, one_mul, Cert.Spec.G_of_sampled x0 x1 x2 b c h]
  · rw [if_neg h, zero_mul, Cert.Spec.G_of_not_sampled x0 x1 x2 b c h]

end Cert.ReferenceIdeal.RefValue

end
-- ==== Proof.lean ====
/-
  The certificate: a kernel that masks per-concept scores by a sampled-index table, against its jnp reference.

  For a batch row `b` and a concept `c` both programs return the score of `c` — the inner product of row `c` of
  the two float tables — when row `b` of the index table samples `c`, and zero otherwise (`Cert.Spec.G`).

  * The kernel program computes the scores in one region (a product and a sum along each row, written as one
    row of 4096 lanes), reshapes the row to 32 × 128, and in a second region builds for every row of the index
    table the two one-hot marks of each word `w` — of `w >> 7` against `0 … 31` and of `w & 127` against
    `0 … 127` —, contracts them over the row's 256 words, and keeps the score where the count is positive. For a
    non-negative word the two marks meet exactly at `(h, l)` with `w = 128·h + l`, so the count at `(h, l)` is
    positive exactly when the row samples concept `128·h + l`. A last reshape gives the `[4096, 4096]` result.
  * The reference scatters the constant one into a zero matrix at the pairs (row, word) and multiplies by the
    broadcast scores: the scattered matrix is one at `(b, c)` exactly when row `b` samples `c`, and on the
    extended reals `1 · s = s` and `0 · s = 0` for every `s`.

  The precondition asks that no index word is negative. (jnp's indexing wraps a negative word `w ≥ -4096` to
  `w + 4096`, which the kernel's arithmetic shift never matches; words of 4096 and more are dropped by the
  scatter and matched by no mark, so no upper bound is needed.) The float tables' finiteness is not used: the
  two sides are the same sum, and the mask acts by `1 ·` and `0 ·` only.

  The frames of the two kernel programs are the generated ones; the reference's is its generated run. The
  idealization rewrote nothing, so `preserves` is trivial.
-/
import proofs.«411610_j9139690405988_3_alg».proof.Defs
import proofs.«411610_j9139690405988_3_alg».proof.Proof.Gen.Kernel
import proofs.«411610_j9139690405988_3_alg».proof.Proof.Gen.Kernel.Frame
import proofs.«411610_j9139690405988_3_alg».proof.Proof.Gen.KernelIdeal
import proofs.«411610_j9139690405988_3_alg».proof.Proof.Gen.KernelIdeal.Frame
import proofs.«411610_j9139690405988_3_alg».proof.Proof.Gen.ReferenceIdeal
import proofs.«411610_j9139690405988_3_alg».proof.Proof.Gen.Pre_finite_inputs
import proofs.«411610_j9139690405988_3_alg».proof.Proof.Gen.ReferenceIdeal.Run
import proofs.«411610_j9139690405988_3_alg».proof.Proof.Gen.ReferenceIdeal.Read
import proofs.«411610_j9139690405988_3_alg».proof.Proof.Spec
import proofs.«411610_j9139690405988_3_alg».proof.Proof.PreIdx
import proofs.«411610_j9139690405988_3_alg».proof.Proof.KernelRun
import proofs.«411610_j9139690405988_3_alg».proof.Proof.KernelValue
import proofs.«411610_j9139690405988_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `G` of the launched arguments: the kernel program's by the walk through its
    two regions and two reshapes, the reference's by its stages read at an index; the precondition gives that no
    index word is negative, which both readings use. -/
theorem algebraic : Cert.algebraic_KernelIdeal_ReferenceIdeal := by
  intro m ρ m' ρ' hpre hagree
  have hidx : ∀ c : Dev Cert.KernelIdeal.nD, ∀ j, 0 ≤ ((m ((c.tc : Thread Cert.KernelIdeal.nD Cert.KernelIdeal.τ).loc Cert.KernelIdeal.main_arg2) : IVec Cert.Pre_finite_inputs.S4096x256 32) j).toInt :=
    fun c => Cert.Pre_finite_inputs.Hand.idx_nonneg_of_pre _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.result_eq m ρ c (hidx c)), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2]
    exact Cert.ReferenceIdeal.RefValue.ref_eq _ _ _ (hidx c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
